-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256x64 .f32) (main_arg6 : FVec F S64 .f32) (main_arg7 : FVec F S256x64 .f32) (main_arg8 : FVec F S64x128 .f32) (main_arg9 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x64 .f32) (main_arg6 : FVec F S64 .f32) (main_arg7 : FVec F S256x64 .f32) (main_arg8 : FVec F S64x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩
abbrev S1x128 : Shape := ⟨2, ![1, 128]⟩

abbrev nBuf : Space → Nat
  | .hbm => 69
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S128x256, .bf16⟩
  | .hbm, ⟨27, _⟩ => ⟨S128x256, .bf16⟩
  | .hbm, ⟨28, _⟩ => ⟨S256x64, .bf16⟩
  | .hbm, ⟨29, _⟩ => ⟨S256x64, .bf16⟩
  | .hbm, ⟨30, _⟩ => ⟨S64x128, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S1x64, .f32⟩
  | .hbm, ⟨66, _⟩ => ⟨S50000x64, .f32⟩
  | .hbm, ⟨67, _⟩ => ⟨S1x128, .f32⟩
  | .hbm, ⟨68, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .bf16⟩
  | .local _ .vmem, ⟨14, _⟩ => ⟨S256x64, .bf16⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x128, .bf16⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S128_S1x128 : S128.ShapeCasts S1x128
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .bf16 = 32 ∨ (Rect.block (s := S64x128) S64x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v29) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  dot_S50000x64_S64x128_S50000x128_1_0_0_1_n_n_wf : DotDims.WF S50000x64 S64x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Spec.lean ====
/-
  The dense part of a two-layer mean-aggregating graph network, as functions of whole arrays over the extended reals.

  A layer takes the neighbour means `mean` (n × k), the node features `x` (n × k), two weight matrices (k × d) and a
  bias row (1 × d), and returns, at row p and column r,
      (Σ_q mean[p,q]·wl[q,r] + Σ_q x[p,q]·wr[q,r]) + b[r].
  The first layer clamps this at zero from below; the decoder is a single product plus a bias row.

  One side forms the neighbour mean as  s · (1 / c)  and the other as  s / c ,  with c the neighbour count clamped
  below by one. On the extended reals the quotient by a c ≠ 0 IS the product with c's inverse, whatever s is (finite
  or not), and 1 / c is that inverse; c ≥ 1 rules out c = 0. One side adds the bias after both products and the other
  between them: addition of extended reals is commutative and associative, so the two orders agree. Neither step
  needs the inputs to be finite.
-/
import Idealize.ShloMosaic.PureOps.Ideal
import Idealize.ShloMosaic.Lib.ValueIdx

noncomputable section

namespace Cert.Sage

open Idealize.ShloMosaic Idealize.ShloMosaic.ValueIdx

/-- The row of an index of a two-axis array. -/
abbrev row {n d : Nat} (i : (⟨2, ![n, d]⟩ : Shape).Idx) : Fin n := ⟨(i 0).val, idx2_lt0 i⟩
/-- The column of an index of a two-axis array. -/
abbrev col {n d : Nat} (i : (⟨2, ![n, d]⟩ : Shape).Idx) : Fin d := ⟨(i 1).val, idx2_lt1 i⟩

/-- Entry (p, r) of the product of an n × k array with a k × d array. -/
def rowDot {n k d : Nat} (a : (⟨2, ![n, k]⟩ : Shape).Idx → EReal) (w : (⟨2, ![k, d]⟩ : Shape).Idx → EReal)
    (p : Fin n) (r : Fin d) : EReal :=
  ∑ q : Fin k, a (ix2 p q) * w (ix2 q r)

/-- A layer before any clamp: neighbour means times their weights, plus the nodes' own features times theirs, plus
    the bias row. -/
def layer {n k d : Nat} (mean x : (⟨2, ![n, k]⟩ : Shape).Idx → EReal) (wl wr : (⟨2, ![k, d]⟩ : Shape).Idx → EReal)
    (b : (⟨2, ![1, d]⟩ : Shape).Idx → EReal) : (⟨2, ![n, d]⟩ : Shape).Idx → EReal :=
  fun i => (rowDot mean wl (row i) (col i) + rowDot x wr (row i) (col i)) + b (ix2 0 (col i))

/-- A layer clamped at zero from below. -/
def layerRelu {n k d : Nat} (mean x : (⟨2, ![n, k]⟩ : Shape).Idx → EReal) (wl wr : (⟨2, ![k, d]⟩ : Shape).Idx → EReal)
    (b : (⟨2, ![1, d]⟩ : Shape).Idx → EReal) : (⟨2, ![n, d]⟩ : Shape).Idx → EReal :=
  fun i => max (layer mean x wl wr b i) 0

/-- The decoder: one product plus a bias row. -/
def decode {n k d : Nat} (z : (⟨2, ![n, k]⟩ : Shape).Idx → EReal) (w : (⟨2, ![k, d]⟩ : Shape).Idx → EReal)
    (b : (⟨2, ![1, d]⟩ : Shape).Idx → EReal) : (⟨2, ![n, d]⟩ : Shape).Idx → EReal :=
  fun i => rowDot z w (row i) (col i) + b (ix2 0 (col i))

/-- A value at least one is not zero. -/
theorem ne_zero_of_one_le {c : EReal} (hc : 1 ≤ c) : c ≠ 0 :=
  fun h => absurd (h ▸ hc) (not_le.mpr (by exact_mod_cast (zero_lt_one : (0 : ℝ) < 1)))

/-- The quotient by a c ≥ 1 is the product with 1 / c, for every extended real numerator. -/
theorem mul_one_div (s c : EReal) (hc : 1 ≤ c) : s * Ideal.div 1 c = Ideal.div s c := by
  have h0 : c ≠ 0 := ne_zero_of_one_le hc
  unfold Ideal.div
  rw [if_neg h0, if_neg h0, one_mul]

/-- The two arrangements of a layer's sum agree: the mean formed by a product with 1 / c against the mean formed by
    a quotient, and the bias added last against the bias added between the two products. -/
theorem layer_law {K : Type} [Fintype K] (s x wl wr : K → EReal) (b c : EReal) (hc : 1 ≤ c) :
    (∑ q, (s q * Ideal.div 1 c) * wl q + ∑ q, x q * wr q) + b
      = ((∑ q, Ideal.div (s q) c * wl q) + b) + ∑ q, x q * wr q := by
  simp only [mul_one_div _ _ hc]
  exact add_right_comm _ _ _

end Cert.Sage

end
-- ==== Proof.EntriesBase.lean ====
/-
  Small facts the entry-by-entry comparison of the two programs uses: a per-row value laid along the columns of an
  array reads that row's value at every column; the clamped incoming-edge count of a node is at least one (it is a
  maximum with one), and its reciprocal as the program forms it is one over that count; a bias vector reshaped to a
  one-row array reads the vector's own entries.
-/
import proofs.«124753_j85315230367791_1_alg».proof.Proof.Gen.KernelIdeal
import proofs.«124753_j85315230367791_1_alg».proof.Proof.Gen.ReferenceIdeal.Read
import proofs.«124753_j85315230367791_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

/-! ## A per-row value laid along the columns -/

/-- A per-row value laid along the columns of a 50000 × 128 array. -/
abbrev spread128 (v : S50000.Idx → EReal) : S50000x128.Idx → EReal :=
  broadcastInDim S50000x128 ![0, 1] bcast_S50000x1_S50000x128_0_1 (broadcastInDim S50000x1 ![0] bcast_S50000_S50000x1_0 v)

/-- Entry (p, q) of the spread array is the value of row p. -/
theorem spread128_apply (v : S50000.Idx → EReal) (i : S50000x128.Idx) : spread128 v i = v (ix1 (Sage.row i)) := by
  unfold spread128
  rw [broadcastInDim_apply _ bcast_S50000x1_S50000x128_0_1 _ i (ix2 (Sage.row i) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ bcast_S50000_S50000x1_0 v _ (ix1 (Sage.row i)) (fun a => match a with
    | ⟨0, _⟩ => by show (i 0).val = if (50000 : Nat) = 1 then 0 else (i 0).val; rw [if_neg (by decide)])

/-- A per-row value laid along the columns of a 50000 × 256 array. -/
abbrev spread256 (v : S50000.Idx → EReal) : S50000x256.Idx → EReal :=
  broadcastInDim S50000x256 ![0, 1] bcast_S50000x1_S50000x256_0_1 (broadcastInDim S50000x1 ![0] bcast_S50000_S50000x1_0 v)

/-- Entry (p, q) of the spread array is the value of row p. -/
theorem spread256_apply (v : S50000.Idx → EReal) (i : S50000x256.Idx) : spread256 v i = v (ix1 (Sage.row i)) := by
  unfold spread256
  rw [broadcastInDim_apply _ bcast_S50000x1_S50000x256_0_1 _ i (ix2 (Sage.row i) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ bcast_S50000_S50000x1_0 v _ (ix1 (Sage.row i)) (fun a => match a with
    | ⟨0, _⟩ => by show (i 0).val = if (50000 : Nat) = 1 then 0 else (i 0).val; rw [if_neg (by decide)])

/-! ## The clamped count and its reciprocal -/

/-- The float pattern of one denotes the real number one. -/
theorem one_f32 : Ideal.ofBits .f32 0x3F800000#32 = 1 := by
  simp [Ideal.ofBits, Ideal.ieee, -EReal.coe_mul]; norm_num

/-- The row of ones the count is clamped against holds one at every node. -/
theorem ones_apply (j : S50000.Idx) : Cert.ReferenceIdeal.Read.val_main_v18 (F := Ideal) j = 1 := by
  rw [Cert.ReferenceIdeal.Read.val_main_v18_apply, Cert.ReferenceIdeal.Read.val_main_cst_3_apply]
  exact one_f32

/-- A node's clamped incoming-edge count is at least one. -/
theorem one_le_count (e : S2x800000.Idx → BitVec 32) (j : S50000.Idx) : 1 ≤ Cert.ReferenceIdeal.Read.val_main_v19 (F := Ideal) e j := by
  rw [Cert.ReferenceIdeal.Read.val_main_v19_apply, ones_apply]
  exact le_max_right _ _

/-- The reciprocal of each node's incoming-edge count clamped below by one, as the first stretch computes it. -/
abbrev invCount (e : S2x800000.Idx → BitVec 32) : S50000.Idx → EReal :=
  Host.divf (F := Ideal) (s := S50000) (φ := .f32) (Cert.ReferenceIdeal.Read.val_main_v18 (F := Ideal)) (Cert.ReferenceIdeal.Read.val_main_v19 (F := Ideal) e)

/-- An entrywise quotient of two per-node arrays, read at a node. -/
theorem quotient_apply (x y : S50000.Idx → EReal) (j : S50000.Idx) :
    Host.divf (F := Ideal) (s := S50000) (φ := .f32) x y j = Ideal.div (x j) (y j) := rfl

/-- At a node it is one over the clamped count. -/
theorem invCount_apply (e : S2x800000.Idx → BitVec 32) (j : S50000.Idx) :
    invCount e j = Ideal.div 1 (Cert.ReferenceIdeal.Read.val_main_v19 (F := Ideal) e j) := by
  unfold invCount
  rw [quotient_apply, ones_apply]

/-- The second layer's clamped count is the first layer's: the same operations on the same edge list. -/
theorem count2_eq (e : S2x800000.Idx → BitVec 32) : Cert.ReferenceIdeal.Read.val_main_v45 (F := Ideal) e = Cert.ReferenceIdeal.Read.val_main_v19 (F := Ideal) e := rfl

/-- The float pattern of zero denotes zero. -/
theorem zero_f32 : Ideal.ofBits .f32 0x00000000#32 = 0 := Ideal.ofBits_zero_f32

/-! ## A bias vector as a row -/

theorem row256_apply (b : S256.Idx → EReal) (r : Fin 256) :
    shapeCast S1x256 b shapeCasts_S256_S1x256 (ix2 (0 : Fin 1) r) = b (ix1 r) := by
  rw [shapeCast_addUnit_apply]
  exact congrArg b (funext fun a => by match a with | ⟨0, _⟩ => rfl)
theorem row64_apply (b : S64.Idx → EReal) (r : Fin 64) :
    shapeCast S1x64 b shapeCasts_S64_S1x64 (ix2 (0 : Fin 1) r) = b (ix1 r) := by
  rw [shapeCast_addUnit_apply]
  exact congrArg b (funext fun a => by match a with | ⟨0, _⟩ => rfl)
theorem row128_apply (b : S128.Idx → EReal) (r : Fin 128) :
    shapeCast S1x128 b shapeCasts_S128_S1x128 (ix2 (0 : Fin 1) r) = b (ix1 r) := by
  rw [shapeCast_addUnit_apply]
  exact congrArg b (funext fun a => by match a with | ⟨0, _⟩ => rfl)

end Cert.KernelIdeal.Chain

end
-- ==== Proof.HostReads.lean ====
/-
  What the buffers the three kernel regions read hold when each region is entered, as functions of the launch
  arguments. Between the regions the program runs plain array operations: it slices the edge list into sources and
  targets, counts each node's incoming edges by a scatter-add of ones, clamps the count below by one and takes its
  reciprocal, gathers the source rows and scatter-adds them at the targets, multiplies each summed row by the
  reciprocal count, narrows the weight matrices (a change of float format, the identity over the extended reals) and
  reshapes each bias vector to a row. Every such chain is read back to the arguments here and named by the
  reference program's own stage functions wherever the two programs apply the same operations to the same arrays
  (the slices, the gathers, the scatter-adds, the clamped count), so that no gather or scatter is ever opened.
  A buffer that neither a stretch of array operations nor a region writes keeps its contents across it.
-/
import proofs.«124753_j85315230367791_1_alg».proof.Proof.Gen.KernelIdeal.Frame
import proofs.«124753_j85315230367791_1_alg».proof.Proof.Gen.ReferenceIdeal.Read
import proofs.«124753_j85315230367791_1_alg».proof.Proof.EntriesBase
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## When the first region is entered -/

set_option maxHeartbeats 4000000 in
/-- The neighbour means of the node features: the rows summed at each target times the reciprocal count. -/
theorem mean1_eq (c : Dev nD) :
    (W1 m ρ c (Proc.devRef .tc main_v29) : S50000x128.Idx → EReal)
      = mulf (F := Ideal) (s := S50000x128) (φ := .f32) (Cert.ReferenceIdeal.Read.val_main_v13 (F := Ideal) (m ((c.tc : Thread nD τ).loc main_arg0)) (m ((c.tc : Thread nD τ).loc main_arg1))) (spread128 (invCount (m ((c.tc : Thread nD τ).loc main_arg1)))) := by
  show StableHlo.after hostOps0 (W0 m ρ c) (Proc.devRef .tc main_v29) = _
  after_results_simp <;> rfl

set_option maxHeartbeats 4000000 in
theorem W1_arg0 (c : Dev nD) : (W1 m ρ c (Proc.devRef .tc main_arg0) : S50000x128.Idx → EReal) = (m ((c.tc : Thread nD τ).loc main_arg0)) := by
  show StableHlo.after hostOps0 (W0 m ρ c) (Proc.devRef .tc main_arg0) = _
  after_results_simp <;> rfl
set_option maxHeartbeats 4000000 in
theorem W1_arg6 (c : Dev nD) : (W1 m ρ c (Proc.devRef .tc main_arg6) : S64.Idx → EReal) = (m ((c.tc : Thread nD τ).loc main_arg6)) := by
  show StableHlo.after hostOps0 (W0 m ρ c) (Proc.devRef .tc main_arg6) = _
  after_results_simp <;> rfl
set_option maxHeartbeats 4000000 in
theorem W1_arg9 (c : Dev nD) : (W1 m ρ c (Proc.devRef .tc main_arg9) : S128.Idx → EReal) = (m ((c.tc : Thread nD τ).loc main_arg9)) := by
  show StableHlo.after hostOps0 (W0 m ρ c) (Proc.devRef .tc main_arg9) = _
  after_results_simp <;> rfl
set_option maxHeartbeats 4000000 in
theorem W1_wl1 (c : Dev nD) : (W1 m ρ c (Proc.devRef .tc main_v12) : S128x256.Idx → EReal)
    = truncf (F := Ideal) (s := S128x256) (φ := .f32) .bf16 (m ((c.tc : Thread nD τ).loc main_arg2)) bitsLt_bf16_f32 := by
  show StableHlo.after hostOps0 (W0 m ρ c) (Proc.devRef .tc main_v12) = _
  after_results_simp <;> rfl
set_option maxHeartbeats 4000000 in
theorem W1_wr1 (c : Dev nD) : (W1 m ρ c (Proc.devRef .tc main_v13) : S128x256.Idx → EReal)
    = truncf (F := Ideal) (s := S128x256) (φ := .f32) .bf16 (m ((c.tc : Thread nD τ).loc main_arg4)) bitsLt_bf16_f32 := by
  show StableHlo.after hostOps0 (W0 m ρ c) (Proc.devRef .tc main_v13) = _
  after_results_simp <;> rfl
set_option maxHeartbeats 4000000 in
theorem W1_wl2 (c : Dev nD) : (W1 m ρ c (Proc.devRef .tc main_v14) : S256x64.Idx → EReal)
    = truncf (F := Ideal) (s := S256x64) (φ := .f32) .bf16 (m ((c.tc : Thread nD τ).loc main_arg5)) bitsLt_bf16_f32 := by
  show StableHlo.after hostOps0 (W0 m ρ c) (Proc.devRef .tc main_v14) = _
  after_results_simp <;> rfl
set_option maxHeartbeats 4000000 in
theorem W1_wr2 (c : Dev nD) : (W1 m ρ c (Proc.devRef .tc main_v15) : S256x64.Idx → EReal)
    = truncf (F := Ideal) (s := S256x64) (φ := .f32) .bf16 (m ((c.tc : Thread nD τ).loc main_arg7)) bitsLt_bf16_f32 := by
  show StableHlo.after hostOps0 (W0 m ρ c) (Proc.devRef .tc main_v15) = _
  after_results_simp <;> rfl
set_option maxHeartbeats 4000000 in
theorem W1_wd (c : Dev nD) : (W1 m ρ c (Proc.devRef .tc main_v16) : S64x128.Idx → EReal)
    = truncf (F := Ideal) (s := S64x128) (φ := .f32) .bf16 (m ((c.tc : Thread nD τ).loc main_arg8)) bitsLt_bf16_f32 := by
  show StableHlo.after hostOps0 (W0 m ρ c) (Proc.devRef .tc main_v16) = _
  after_results_simp <;> rfl
set_option maxHeartbeats 4000000 in
theorem W1_b1 (c : Dev nD) : (W1 m ρ c (Proc.devRef .tc main_v30) : S1x256.Idx → EReal)
    = shapeCast S1x256 ((m ((c.tc : Thread nD τ).loc main_arg3)) : S256.Idx → EReal) shapeCasts_S256_S1x256 := by
  show StableHlo.after hostOps0 (W0 m ρ c) (Proc.devRef .tc main_v30) = _
  after_results_simp <;> rfl
set_option maxHeartbeats 4000000 in
/-- The edges' sources. -/
theorem W1_src (c : Dev nD) : (W1 m ρ c (Proc.devRef .tc main_v1) : S800000.Idx → BitVec 32)
    = Cert.ReferenceIdeal.Read.val_main_v1 (F := Ideal) (m ((c.tc : Thread nD τ).loc main_arg1)) := by
  show StableHlo.after hostOps0 (W0 m ρ c) (Proc.devRef .tc main_v1) = _
  after_results_simp <;> rfl
set_option maxHeartbeats 4000000 in
/-- The edges' targets. -/
theorem W1_dst (c : Dev nD) : (W1 m ρ c (Proc.devRef .tc main_v3) : S800000.Idx → BitVec 32)
    = Cert.ReferenceIdeal.Read.val_main_v3 (F := Ideal) (m ((c.tc : Thread nD τ).loc main_arg1)) := by
  show StableHlo.after hostOps0 (W0 m ρ c) (Proc.devRef .tc main_v3) = _
  after_results_simp <;> rfl
set_option maxHeartbeats 4000000 in
/-- The reciprocal clamped counts. -/
theorem W1_inv (c : Dev nD) : (W1 m ρ c (Proc.devRef .tc main_v11) : S50000.Idx → EReal) = invCount (m ((c.tc : Thread nD τ).loc main_arg1)) := by
  show StableHlo.after hostOps0 (W0 m ρ c) (Proc.devRef .tc main_v11) = _
  after_results_simp <;> rfl

/-! ## Across the first region: it writes only its own output array -/

theorem W2_src (c : Dev nD) : (W2 m ρ c (Proc.devRef .tc main_v1) : S800000.Idx → BitVec 32) = Cert.ReferenceIdeal.Read.val_main_v1 (F := Ideal) (m ((c.tc : Thread nD τ).loc main_arg1)) :=
  (W2_of_ne m ρ c main_v1 (by decide)).trans (W1_src m ρ c)
theorem W2_dst (c : Dev nD) : (W2 m ρ c (Proc.devRef .tc main_v3) : S800000.Idx → BitVec 32) = Cert.ReferenceIdeal.Read.val_main_v3 (F := Ideal) (m ((c.tc : Thread nD τ).loc main_arg1)) :=
  (W2_of_ne m ρ c main_v3 (by decide)).trans (W1_dst m ρ c)
theorem W2_inv (c : Dev nD) : (W2 m ρ c (Proc.devRef .tc main_v11) : S50000.Idx → EReal) = invCount (m ((c.tc : Thread nD τ).loc main_arg1)) :=
  (W2_of_ne m ρ c main_v11 (by decide)).trans (W1_inv m ρ c)
theorem W2_wl2 (c : Dev nD) : (W2 m ρ c (Proc.devRef .tc main_v14) : S256x64.Idx → EReal)
    = truncf (F := Ideal) (s := S256x64) (φ := .f32) .bf16 (m ((c.tc : Thread nD τ).loc main_arg5)) bitsLt_bf16_f32 :=
  (W2_of_ne m ρ c main_v14 (by decide)).trans (W1_wl2 m ρ c)
theorem W2_wr2 (c : Dev nD) : (W2 m ρ c (Proc.devRef .tc main_v15) : S256x64.Idx → EReal)
    = truncf (F := Ideal) (s := S256x64) (φ := .f32) .bf16 (m ((c.tc : Thread nD τ).loc main_arg7)) bitsLt_bf16_f32 :=
  (W2_of_ne m ρ c main_v15 (by decide)).trans (W1_wr2 m ρ c)
theorem W2_wd (c : Dev nD) : (W2 m ρ c (Proc.devRef .tc main_v16) : S64x128.Idx → EReal)
    = truncf (F := Ideal) (s := S64x128) (φ := .f32) .bf16 (m ((c.tc : Thread nD τ).loc main_arg8)) bitsLt_bf16_f32 :=
  (W2_of_ne m ρ c main_v16 (by decide)).trans (W1_wd m ρ c)
theorem W2_arg6 (c : Dev nD) : (W2 m ρ c (Proc.devRef .tc main_arg6) : S64.Idx → EReal) = (m ((c.tc : Thread nD τ).loc main_arg6)) :=
  (W2_of_ne m ρ c main_arg6 (by decide)).trans (W1_arg6 m ρ c)
theorem W2_arg9 (c : Dev nD) : (W2 m ρ c (Proc.devRef .tc main_arg9) : S128.Idx → EReal) = (m ((c.tc : Thread nD τ).loc main_arg9)) :=
  (W2_of_ne m ρ c main_arg9 (by decide)).trans (W1_arg9 m ρ c)

/-! ## When the second region is entered -/

set_option maxHeartbeats 4000000 in
/-- The neighbour means of the hidden features, once the hidden array is known to be the reference's hidden stage. -/
theorem mean2_eq (c : Dev nD)
    (hH : (W2 m ρ c (Proc.devRef .tc main_v31) : S50000x256.Idx → EReal) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    (W3 m ρ c (Proc.devRef .tc main_v44) : S50000x256.Idx → EReal)
      = mulf (F := Ideal) (s := S50000x256) (φ := .f32) (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (spread256 (invCount (m ((c.tc : Thread nD τ).loc main_arg1)))) := by
  show StableHlo.after hostOps1 (W2 m ρ c) (Proc.devRef .tc main_v44) = _
  after_results_simp
  rw [W2_src, W2_dst, W2_inv, hH]
  rfl
set_option maxHeartbeats 4000000 in
theorem W3_hidden (c : Dev nD) : W3 m ρ c (Proc.devRef .tc main_v31) = W2 m ρ c (Proc.devRef .tc main_v31) := by
  show StableHlo.after hostOps1 (W2 m ρ c) (Proc.devRef .tc main_v31) = _
  after_results_simp <;> rfl
set_option maxHeartbeats 4000000 in
theorem W3_wl2 (c : Dev nD) : (W3 m ρ c (Proc.devRef .tc main_v14) : S256x64.Idx → EReal)
    = truncf (F := Ideal) (s := S256x64) (φ := .f32) .bf16 (m ((c.tc : Thread nD τ).loc main_arg5)) bitsLt_bf16_f32 := by
  refine Eq.trans ?_ (W2_wl2 m ρ c)
  show StableHlo.after hostOps1 (W2 m ρ c) (Proc.devRef .tc main_v14) = _
  after_results_simp <;> rfl
set_option maxHeartbeats 4000000 in
theorem W3_wr2 (c : Dev nD) : (W3 m ρ c (Proc.devRef .tc main_v15) : S256x64.Idx → EReal)
    = truncf (F := Ideal) (s := S256x64) (φ := .f32) .bf16 (m ((c.tc : Thread nD τ).loc main_arg7)) bitsLt_bf16_f32 := by
  refine Eq.trans ?_ (W2_wr2 m ρ c)
  show StableHlo.after hostOps1 (W2 m ρ c) (Proc.devRef .tc main_v15) = _
  after_results_simp <;> rfl
set_option maxHeartbeats 4000000 in
theorem W3_wd (c : Dev nD) : (W3 m ρ c (Proc.devRef .tc main_v16) : S64x128.Idx → EReal)
    = truncf (F := Ideal) (s := S64x128) (φ := .f32) .bf16 (m ((c.tc : Thread nD τ).loc main_arg8)) bitsLt_bf16_f32 := by
  refine Eq.trans ?_ (W2_wd m ρ c)
  show StableHlo.after hostOps1 (W2 m ρ c) (Proc.devRef .tc main_v16) = _
  after_results_simp <;> rfl
set_option maxHeartbeats 4000000 in
theorem W3_arg9 (c : Dev nD) : (W3 m ρ c (Proc.devRef .tc main_arg9) : S128.Idx → EReal) = (m ((c.tc : Thread nD τ).loc main_arg9)) := by
  refine Eq.trans ?_ (W2_arg9 m ρ c)
  show StableHlo.after hostOps1 (W2 m ρ c) (Proc.devRef .tc main_arg9) = _
  after_results_simp <;> rfl
set_option maxHeartbeats 4000000 in
theorem W3_b2 (c : Dev nD) : (W3 m ρ c (Proc.devRef .tc main_v45) : S1x64.Idx → EReal)
    = shapeCast S1x64 ((m ((c.tc : Thread nD τ).loc main_arg6)) : S64.Idx → EReal) shapeCasts_S64_S1x64 := by
  show StableHlo.after hostOps1 (W2 m ρ c) (Proc.devRef .tc main_v45) = _
  after_results_simp
  rw [W2_arg6]
  rfl

/-! ## Across the second region, and when the decoder's region is entered -/

theorem W4_wd (c : Dev nD) : (W4 m ρ c (Proc.devRef .tc main_v16) : S64x128.Idx → EReal)
    = truncf (F := Ideal) (s := S64x128) (φ := .f32) .bf16 (m ((c.tc : Thread nD τ).loc main_arg8)) bitsLt_bf16_f32 :=
  (W4_of_ne m ρ c main_v16 (by decide)).trans (W3_wd m ρ c)
theorem W4_arg9 (c : Dev nD) : (W4 m ρ c (Proc.devRef .tc main_arg9) : S128.Idx → EReal) = (m ((c.tc : Thread nD τ).loc main_arg9)) :=
  (W4_of_ne m ρ c main_arg9 (by decide)).trans (W3_arg9 m ρ c)

theorem W5_latent (c : Dev nD) : W5 m ρ c (Proc.devRef .tc main_v46) = W4 m ρ c (Proc.devRef .tc main_v46) := by
  show StableHlo.after hostOps2 (W4 m ρ c) (Proc.devRef .tc main_v46) = _
  after_results_simp <;> rfl
theorem W5_wd (c : Dev nD) : (W5 m ρ c (Proc.devRef .tc main_v16) : S64x128.Idx → EReal)
    = truncf (F := Ideal) (s := S64x128) (φ := .f32) .bf16 (m ((c.tc : Thread nD τ).loc main_arg8)) bitsLt_bf16_f32 := by
  refine Eq.trans ?_ (W4_wd m ρ c)
  show StableHlo.after hostOps2 (W4 m ρ c) (Proc.devRef .tc main_v16) = _
  after_results_simp <;> rfl
theorem W5_bd (c : Dev nD) : (W5 m ρ c (Proc.devRef .tc main_v47) : S1x128.Idx → EReal)
    = shapeCast S1x128 ((m ((c.tc : Thread nD τ).loc main_arg9)) : S128.Idx → EReal) shapeCasts_S128_S1x128 := by
  show StableHlo.after hostOps2 (W4 m ρ c) (Proc.devRef .tc main_v47) = _
  after_results_simp
  rw [W4_arg9]
  rfl

end Cert.KernelIdeal.Chain

end
-- ==== Proof.Entries.lean ====
/-
  The three dense formulas of Spec.lean, entry by entry, against the reference program's stages.

  Write s for the rows summed at each target, c ≥ 1 for the clamped incoming-edge count of a row, a for the layer's
  input features. At entry (p, r) the reference's layer is
        ((Σ_q (s[p,q] / c[p]) · wl[q,r]) + b[r]) + Σ_q a[p,q] · wr[q,r]
  and the kernel's, with the neighbour mean formed as s · (1 / c), is
        (Σ_q (s[p,q] · (1 / c[p])) · wl[q,r] + Σ_q a[p,q] · wr[q,r]) + b[r];
  they agree by `Sage.layer_law`, the count being at least one because it is a maximum with one. The first layer
  clamps both at zero, the decoder is one product plus the bias on both sides. Narrowing a weight matrix to a
  shorter float format is the identity over the extended reals, and a bias vector reshaped to a 1 × d row or
  broadcast along the rows reads the same entry b[r].
-/
import proofs.«124753_j85315230367791_1_alg».proof.Proof.EntriesBase

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

/-- The clamped first layer, with the neighbour mean formed by the reciprocal count, is the reference's hidden stage, entry by entry. -/
theorem first_layer_entry (a0 : S50000x128.Idx → EReal) (e : S2x800000.Idx → BitVec 32) (w2 : S128x256.Idx → EReal) (b3 : S256.Idx → EReal) (w4 : S128x256.Idx → EReal) (i : S50000x256.Idx) :
    Sage.layerRelu (n := 50000) (k := 128) (d := 256)
        (mulf (F := Ideal) (s := S50000x128) (φ := .f32) (Cert.ReferenceIdeal.Read.val_main_v13 (F := Ideal) a0 e) (spread128 (invCount e))) (a0)
        (truncf (F := Ideal) (s := S128x256) (φ := .f32) .bf16 w2 bitsLt_bf16_f32) (truncf (F := Ideal) (s := S128x256) (φ := .f32) .bf16 w4 bitsLt_bf16_f32)
        (shapeCast S1x256 b3 shapeCasts_S256_S1x256) i
      = Cert.ReferenceIdeal.Read.val_main_v29 (F := Ideal) a0 e w2 b3 w4 i := by
  have hl : ∀ k : Fin 128, Cert.ReferenceIdeal.Read.lidx_main_v23 i k = ix2 (Sage.row i) k := fun k => funext fun a => by
    match a with
    | ⟨0, _⟩ => rfl
    | ⟨1, _⟩ => rfl
  have hr : ∀ k : Fin 128, Cert.ReferenceIdeal.Read.ridx_main_v23 i k = ix2 k (Sage.col i) := fun k => funext fun a => by
    match a with
    | ⟨0, _⟩ => rfl
    | ⟨1, _⟩ => rfl
  have hl' : ∀ k : Fin 128, Cert.ReferenceIdeal.Read.lidx_main_v27 i k = ix2 (Sage.row i) k := fun k => funext fun a => by
    match a with
    | ⟨0, _⟩ => rfl
    | ⟨1, _⟩ => rfl
  have hr' : ∀ k : Fin 128, Cert.ReferenceIdeal.Read.ridx_main_v27 i k = ix2 k (Sage.col i) := fun k => funext fun a => by
    match a with
    | ⟨0, _⟩ => rfl
    | ⟨1, _⟩ => rfl
  have hb : Cert.ReferenceIdeal.Read.idx_main_v24 (Cert.ReferenceIdeal.Read.idx_main_v25 i) = ix1 (Sage.col i) := funext fun a => by
    match a with
    | ⟨0, _⟩ => rfl
  -- the clamped count of this entry's row
  have hcnt : (1 : EReal) ≤ Cert.ReferenceIdeal.Read.val_main_v19 (F := Ideal) e (ix1 (Sage.row i)) := one_le_count e _
  -- the reference's neighbour mean at (row, k): the summed row over the count
  have hm : ∀ k : Fin 128, Cert.ReferenceIdeal.Read.val_main_v22 (F := Ideal) a0 e (ix2 (Sage.row i) k)
      = Ideal.div ((Cert.ReferenceIdeal.Read.val_main_v13 (F := Ideal) a0 e) (ix2 (Sage.row i) k)) (Cert.ReferenceIdeal.Read.val_main_v19 (F := Ideal) e (ix1 (Sage.row i))) := fun k => by
    rw [Cert.ReferenceIdeal.Read.val_main_v22_apply, Cert.ReferenceIdeal.Read.val_main_v21_apply, Cert.ReferenceIdeal.Read.val_main_v20_apply]
    have hc : Cert.ReferenceIdeal.Read.idx_main_v20 (Cert.ReferenceIdeal.Read.idx_main_v21 (ix2 (Sage.row i) k)) = ix1 (Sage.row i) := funext fun a => by
      match a with
      | ⟨0, _⟩ => rfl
    rw [hc, Ideal.hostDivf_def]
  -- the kernel's neighbour mean at (row, k): the summed row times the reciprocal count
  have hk : ∀ k : Fin 128, (mulf (F := Ideal) (s := S50000x128) (φ := .f32) (Cert.ReferenceIdeal.Read.val_main_v13 (F := Ideal) a0 e) (spread128 (invCount e))) (ix2 (Sage.row i) k)
      = (Cert.ReferenceIdeal.Read.val_main_v13 (F := Ideal) a0 e) (ix2 (Sage.row i) k) * Ideal.div 1 (Cert.ReferenceIdeal.Read.val_main_v19 (F := Ideal) e (ix1 (Sage.row i))) := fun k => by
    rw [ValueIdx.mulf_apply, spread128_apply, invCount_apply]
  -- the reference's stage at this entry, its sums over the same index pairs
  have href : Cert.ReferenceIdeal.Read.val_main_v29 (F := Ideal) a0 e w2 b3 w4 i
      = max (((∑ q : Fin 128, Ideal.div ((Cert.ReferenceIdeal.Read.val_main_v13 (F := Ideal) a0 e) (ix2 (Sage.row i) q)) (Cert.ReferenceIdeal.Read.val_main_v19 (F := Ideal) e (ix1 (Sage.row i))) * w2 (ix2 q (Sage.col i))) + b3 (ix1 (Sage.col i))) + ∑ q : Fin 128, (a0) (ix2 (Sage.row i) q) * w4 (ix2 q (Sage.col i))) 0 := by
    rw [Cert.ReferenceIdeal.Read.val_main_v29_apply, Cert.ReferenceIdeal.Read.val_main_v28_apply, Cert.ReferenceIdeal.Read.val_main_v26_apply, Cert.ReferenceIdeal.Read.val_main_v23_apply, Cert.ReferenceIdeal.Read.val_main_v27_apply, Cert.ReferenceIdeal.Read.val_main_v25_apply, Cert.ReferenceIdeal.Read.val_main_v24_apply, Cert.ReferenceIdeal.Read.val_main_call0_v0_apply, Cert.ReferenceIdeal.Read.val_main_call0_cst_apply]
    simp only [Ideal.addf_def, Ideal.maximumf_def, Ideal.ofBits_def]
    rw [hb, zero_f32]
    refine congrArg (max · 0) (congrArg₂ (· + ·) (congrArg (· + b3 (ix1 (Sage.col i))) ?_) ?_)
    · exact Finset.sum_congr rfl fun k _ => by rw [hl k, hr k, hm k]
    · exact Finset.sum_congr rfl fun k _ => by rw [hl' k, hr' k]
  rw [href]
  unfold Sage.layerRelu Sage.layer Sage.rowDot
  rw [row256_apply]
  refine congrArg (max · 0) ?_
  refine Eq.trans ?_ (Sage.layer_law (fun q : Fin 128 => (Cert.ReferenceIdeal.Read.val_main_v13 (F := Ideal) a0 e) (ix2 (Sage.row i) q)) (fun q => (a0) (ix2 (Sage.row i) q))
    (fun q => w2 (ix2 q (Sage.col i))) (fun q => w4 (ix2 q (Sage.col i))) (b3 (ix1 (Sage.col i))) _ hcnt)
  refine congrArg (· + b3 (ix1 (Sage.col i))) (congrArg₂ (· + ·) (Finset.sum_congr rfl fun q _ => ?_) (Finset.sum_congr rfl fun q _ => ?_))
  · rw [hk q, ValueIdx.truncf_apply]
  · rw [ValueIdx.truncf_apply]

/-- The second layer over the hidden stage, with the neighbour mean formed by the reciprocal count, is the reference's latent stage, entry by entry. -/
theorem second_layer_entry (a0 : S50000x128.Idx → EReal) (e : S2x800000.Idx → BitVec 32) (w2 : S128x256.Idx → EReal) (b3 : S256.Idx → EReal) (w4 : S128x256.Idx → EReal) (w5 : S256x64.Idx → EReal) (b6 : S64.Idx → EReal) (w7 : S256x64.Idx → EReal) (i : S50000x64.Idx) :
    Sage.layer (n := 50000) (k := 256) (d := 64)
        (mulf (F := Ideal) (s := S50000x256) (φ := .f32) (Cert.ReferenceIdeal.Read.val_main_v39 (F := Ideal) a0 e w2 b3 w4) (spread256 (invCount e))) (Cert.ReferenceIdeal.Read.val_main_v29 (F := Ideal) a0 e w2 b3 w4)
        (truncf (F := Ideal) (s := S256x64) (φ := .f32) .bf16 w5 bitsLt_bf16_f32) (truncf (F := Ideal) (s := S256x64) (φ := .f32) .bf16 w7 bitsLt_bf16_f32)
        (shapeCast S1x64 b6 shapeCasts_S64_S1x64) i
      = Cert.ReferenceIdeal.Read.val_main_v54 (F := Ideal) a0 e w2 b3 w4 w5 b6 w7 i := by
  have hl : ∀ k : Fin 256, Cert.ReferenceIdeal.Read.lidx_main_v49 i k = ix2 (Sage.row i) k := fun k => funext fun a => by
    match a with
    | ⟨0, _⟩ => rfl
    | ⟨1, _⟩ => rfl
  have hr : ∀ k : Fin 256, Cert.ReferenceIdeal.Read.ridx_main_v49 i k = ix2 k (Sage.col i) := fun k => funext fun a => by
    match a with
    | ⟨0, _⟩ => rfl
    | ⟨1, _⟩ => rfl
  have hl' : ∀ k : Fin 256, Cert.ReferenceIdeal.Read.lidx_main_v53 i k = ix2 (Sage.row i) k := fun k => funext fun a => by
    match a with
    | ⟨0, _⟩ => rfl
    | ⟨1, _⟩ => rfl
  have hr' : ∀ k : Fin 256, Cert.ReferenceIdeal.Read.ridx_main_v53 i k = ix2 k (Sage.col i) := fun k => funext fun a => by
    match a with
    | ⟨0, _⟩ => rfl
    | ⟨1, _⟩ => rfl
  have hb : Cert.ReferenceIdeal.Read.idx_main_v50 (Cert.ReferenceIdeal.Read.idx_main_v51 i) = ix1 (Sage.col i) := funext fun a => by
    match a with
    | ⟨0, _⟩ => rfl
  -- the clamped count of this entry's row
  have hcnt : (1 : EReal) ≤ Cert.ReferenceIdeal.Read.val_main_v19 (F := Ideal) e (ix1 (Sage.row i)) := one_le_count e _
  -- the reference's neighbour mean at (row, k): the summed row over the count
  have hm : ∀ k : Fin 256, Cert.ReferenceIdeal.Read.val_main_v48 (F := Ideal) a0 e w2 b3 w4 (ix2 (Sage.row i) k)
      = Ideal.div ((Cert.ReferenceIdeal.Read.val_main_v39 (F := Ideal) a0 e w2 b3 w4) (ix2 (Sage.row i) k)) (Cert.ReferenceIdeal.Read.val_main_v19 (F := Ideal) e (ix1 (Sage.row i))) := fun k => by
    rw [Cert.ReferenceIdeal.Read.val_main_v48_apply, Cert.ReferenceIdeal.Read.val_main_v47_apply, Cert.ReferenceIdeal.Read.val_main_v46_apply]
    have hc : Cert.ReferenceIdeal.Read.idx_main_v46 (Cert.ReferenceIdeal.Read.idx_main_v47 (ix2 (Sage.row i) k)) = ix1 (Sage.row i) := funext fun a => by
      match a with
      | ⟨0, _⟩ => rfl
    rw [hc, count2_eq, Ideal.hostDivf_def]
  -- the kernel's neighbour mean at (row, k): the summed row times the reciprocal count
  have hk : ∀ k : Fin 256, (mulf (F := Ideal) (s := S50000x256) (φ := .f32) (Cert.ReferenceIdeal.Read.val_main_v39 (F := Ideal) a0 e w2 b3 w4) (spread256 (invCount e))) (ix2 (Sage.row i) k)
      = (Cert.ReferenceIdeal.Read.val_main_v39 (F := Ideal) a0 e w2 b3 w4) (ix2 (Sage.row i) k) * Ideal.div 1 (Cert.ReferenceIdeal.Read.val_main_v19 (F := Ideal) e (ix1 (Sage.row i))) := fun k => by
    rw [ValueIdx.mulf_apply, spread256_apply, invCount_apply]
  -- the reference's stage at this entry, its sums over the same index pairs
  have href : Cert.ReferenceIdeal.Read.val_main_v54 (F := Ideal) a0 e w2 b3 w4 w5 b6 w7 i
      = ((∑ q : Fin 256, Ideal.div ((Cert.ReferenceIdeal.Read.val_main_v39 (F := Ideal) a0 e w2 b3 w4) (ix2 (Sage.row i) q)) (Cert.ReferenceIdeal.Read.val_main_v19 (F := Ideal) e (ix1 (Sage.row i))) * w5 (ix2 q (Sage.col i))) + b6 (ix1 (Sage.col i))) + ∑ q : Fin 256, (Cert.ReferenceIdeal.Read.val_main_v29 (F := Ideal) a0 e w2 b3 w4) (ix2 (Sage.row i) q) * w7 (ix2 q (Sage.col i)) := by
    rw [Cert.ReferenceIdeal.Read.val_main_v54_apply, Cert.ReferenceIdeal.Read.val_main_v52_apply, Cert.ReferenceIdeal.Read.val_main_v49_apply, Cert.ReferenceIdeal.Read.val_main_v53_apply, Cert.ReferenceIdeal.Read.val_main_v51_apply, Cert.ReferenceIdeal.Read.val_main_v50_apply]
    simp only [Ideal.addf_def]
    rw [hb]
    refine congrArg₂ (· + ·) (congrArg (· + b6 (ix1 (Sage.col i))) ?_) ?_
    · exact Finset.sum_congr rfl fun k _ => by rw [hl k, hr k, hm k]
    · exact Finset.sum_congr rfl fun k _ => by rw [hl' k, hr' k]
  rw [href]
  unfold Sage.layer Sage.rowDot
  rw [row64_apply]
  refine Eq.trans ?_ (Sage.layer_law (fun q : Fin 256 => (Cert.ReferenceIdeal.Read.val_main_v39 (F := Ideal) a0 e w2 b3 w4) (ix2 (Sage.row i) q)) (fun q => (Cert.ReferenceIdeal.Read.val_main_v29 (F := Ideal) a0 e w2 b3 w4) (ix2 (Sage.row i) q))
    (fun q => w5 (ix2 q (Sage.col i))) (fun q => w7 (ix2 q (Sage.col i))) (b6 (ix1 (Sage.col i))) _ hcnt)
  refine congrArg (· + b6 (ix1 (Sage.col i))) (congrArg₂ (· + ·) (Finset.sum_congr rfl fun q _ => ?_) (Finset.sum_congr rfl fun q _ => ?_))
  · rw [hk q, ValueIdx.truncf_apply]
  · rw [ValueIdx.truncf_apply]

/-- The decoder of the latent stage is the reference's last stage, entry by entry. -/
theorem decode_entry (a0 : S50000x128.Idx → EReal) (e : S2x800000.Idx → BitVec 32) (w2 : S128x256.Idx → EReal) (b3 : S256.Idx → EReal) (w4 : S128x256.Idx → EReal) (w5 : S256x64.Idx → EReal) (b6 : S64.Idx → EReal) (w7 : S256x64.Idx → EReal) (w8 : S64x128.Idx → EReal) (b9 : S128.Idx → EReal) (i : S50000x128.Idx) :
    Sage.decode (n := 50000) (k := 64) (d := 128) (Cert.ReferenceIdeal.Read.val_main_v54 (F := Ideal) a0 e w2 b3 w4 w5 b6 w7)
        (truncf (F := Ideal) (s := S64x128) (φ := .f32) .bf16 w8 bitsLt_bf16_f32) (shapeCast S1x128 b9 shapeCasts_S128_S1x128) i
      = Cert.ReferenceIdeal.Read.val_main_v58 (F := Ideal) a0 e w2 b3 w4 w5 b6 w7 w8 b9 i := by
  have hl : ∀ k : Fin 64, Cert.ReferenceIdeal.Read.lidx_main_v55 i k = ix2 (Sage.row i) k := fun k => funext fun a => by
    match a with
    | ⟨0, _⟩ => rfl
    | ⟨1, _⟩ => rfl
  have hr : ∀ k : Fin 64, Cert.ReferenceIdeal.Read.ridx_main_v55 i k = ix2 k (Sage.col i) := fun k => funext fun a => by
    match a with
    | ⟨0, _⟩ => rfl
    | ⟨1, _⟩ => rfl
  have hb : Cert.ReferenceIdeal.Read.idx_main_v56 (Cert.ReferenceIdeal.Read.idx_main_v57 i) = ix1 (Sage.col i) := funext fun a => by
    match a with
    | ⟨0, _⟩ => rfl
  rw [Cert.ReferenceIdeal.Read.val_main_v58_apply, Cert.ReferenceIdeal.Read.val_main_v55_apply, Cert.ReferenceIdeal.Read.val_main_v57_apply, Cert.ReferenceIdeal.Read.val_main_v56_apply, Ideal.addf_def, hb]
  unfold Sage.decode Sage.rowDot
  rw [row128_apply]
  refine congrArg (· + b9 (ix1 (Sage.col i))) (Finset.sum_congr rfl fun k _ => ?_)
  rw [hl k, hr k, ValueIdx.truncf_apply]

end Cert.KernelIdeal.Chain

end
-- ==== Proof.FirstLayer.lean ====
/-
  The first layer's kernel region, read as a value over the extended reals. The region walks the 50000 rows in 25
  blocks of 2000; at block t it reads rows 2000 t … 2000 t + 1999 of the neighbour means and of the node features,
  both whole weight matrices and the bias row, and writes the same rows of the output. So the output array after
  the region is ONE function of the arrays as the region finds them: the clamped layer of Spec.lean.
-/
import proofs.«124753_j85315230367791_1_alg».proof.Proof.Gen.KernelIdeal.Frame
import proofs.«124753_j85315230367791_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstLayer

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: every statement below holds for any such contents
variable (V : (c : Dev nD) → (b : Ref sig .tc) → Buf (Elt Ideal) ((c : Thread nD τ).loc b))

/-! ## One entry of a block product

The kernel multiplies a 2000 × 128 block by a 128 × 256 matrix, contracting the block's second axis with the matrix's
first. The four facts below read the two operand indices of that product, axis by axis. -/

/-- The left operand's row is the output's row. -/
theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column is the contraction index. -/
theorem lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row is the contraction index. -/
theorem rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column is the output's column. -/
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block times a matrix, accumulated into zero, at row p and column r: the sum over the shared axis of the
    products of the entries. -/
theorem blockProduct_apply (a : FVec Ideal S2000x128 .bf16) (w : FVec Ideal S128x256 .bf16) (p : Fin 2000) (r : Fin 256) :
    matmul dot_S2000x128_S128x256_S2000x256_1_0_0_1_n_n none a w (constant (F := Ideal) S2000x256 .f32 0x00000000#32) (ix2 p r)
      = ∑ q : Fin 128, a (ix2 p q) * w (ix2 q r) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p r) ((ValueIdx.contrEquiv1 dot_S2000x128_S128x256_S2000x256_1_0_0_1_n_n 128 rfl rfl).symm k) = ix2 p k := funext fun b => Fin.ext (by
    match b with
    | ⟨0, _⟩ => exact lhs_row _ _
    | ⟨1, _⟩ => exact (lhs_col _ _).trans hk)
  have er : dot_S2000x128_S128x256_S2000x256_1_0_0_1_n_n.rhsIdx (ix2 p r) ((ValueIdx.contrEquiv1 dot_S2000x128_S128x256_S2000x256_1_0_0_1_n_n 128 rfl rfl).symm k) = ix2 k r := funext fun b => Fin.ext (by
    match b with
    | ⟨0, _⟩ => exact (rhs_row _ _).trans hk
    | ⟨1, _⟩ => exact rhs_col _ _)
  rw [el, er]

/-- The bias row spread over the 2000 rows of a block reads, at any row, the row's entry in that column. -/
theorem biasRows_apply (b : FVec Ideal S1x256 .f32) (p : Fin 2000) (r : Fin 256) :
    broadcastTo S2000x256 b broadcasts_S1x256_S2000x256 (ix2 p r) = b (ix2 0 r) := by
  refine broadcastTo_apply b _ (ix2 p r) (ix2 0 r) fun a => ?_
  match a with
  | ⟨0, _⟩ => rfl
  | ⟨1, _⟩ => rfl

/-! ## The body's result at an entry -/

/-- What the body stores at row p and column r of its output block: the two block products added, plus the bias
    row's entry, clamped at zero from below. -/
theorem payload_apply (x0 x1 : Vec Ideal S2000x128 .f32) (x2 x3 : Vec Ideal S128x256 .bf16) (x4 : Vec Ideal S1x256 .f32)
    (p : Fin 2000) (r : Fin 256) :
    (k0_pay1 (F := Ideal) x0 x1 x2 x3 x4) (ix2 p r)
      = max ((∑ q : Fin 128, x0 (ix2 p q) * x2 (ix2 q r) + ∑ q : Fin 128, x1 (ix2 p q) * x3 (ix2 q r)) + x4 (ix2 0 r)) 0 := by
  unfold k0_pay1
  simp only [shapeCast_self]
  rw [maximumf_apply, addf_apply, addf_apply, blockProduct_apply, blockProduct_apply, biasRows_apply, broadcast_apply]
  simp only [truncf_apply]
  congr 1
  exact Ideal.ofBits_zero_f32

/-! ## The windows' blocks as parts of their arrays

The region's 25 points walk the rows in blocks of 2000: at point t the two row-blocked inputs and the output sit at
block (t, 0) of their arrays, and the two weight matrices and the bias row, which are one block each, at block (0, 0). -/

theorem zeroOffsets : (![0, 0] : Fin 2 → Nat) = fun _ => 0 := funext fun a => by fin_cases a <;> rfl

/-- The block index of every window at every point, decided over the 25 points. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- The neighbour means' block at point t is rows 2000 t … 2000 t + 1999 of their array. -/
theorem meanBlock_apply (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_v29 : Vec Ideal S50000x128 .f32) i := by
  obtain ⟨⟨e0, e1⟩, -⟩ := blockIndex t
  have h : ((cfg0.win 0).blk t).view.emb y = i := by
    funext a; apply Fin.ext
    match a with
    | ⟨0, _⟩ => show win0_0.index t (0 : Fin 2) * 2000 + 1 * (y 0).val = (i 0).val; omega
    | ⟨1, _⟩ => show win0_0.index t (1 : Fin 2) * 128 + 1 * (y 1).val = (i 1).val; omega
  show V c main_v29 (((cfg0.win 0).blk t).view.emb y) = V c main_v29 i
  rw [h]

/-- The node features' block at point t is the same rows of theirs. -/
theorem featureBlock_apply (c : Dev nD) (t : Fin cfg0.N) (y : S2000x128.Idx) (i : S50000x128.Idx)
    (h0 : (i 0).val = 2000 * t.val + (y 0).val) (h1 : (i 1).val = (y 1).val) :
    (iblk0 V c 1 t : Vec Ideal S2000x128 .f32) y = (V c main_arg0 : Vec Ideal S50000x128 .f32) i := by
  obtain ⟨-, ⟨e0, e1⟩, -⟩ := blockIndex t
  have h : ((cfg0.win 1).blk t).view.emb y = i := by
    funext a; apply Fin.ext
    match a with
    | ⟨0, _⟩ => show win0_1.index t (0 : Fin 2) * 2000 + 1 * (y 0).val = (i 0).val; omega
    | ⟨1, _⟩ => show win0_1.index t (1 : Fin 2) * 128 + 1 * (y 1).val = (i 1).val; omega
  show V c main_arg0 (((cfg0.win 1).blk t).view.emb y) = V c main_arg0 i
  rw [h]

/-- The first weight matrix's block is the whole matrix, at every point. -/
theorem meanWeights_apply (c : Dev nD) (t : Fin cfg0.N) (y : S128x256.Idx) :
    (iblk0 V c 2 t : Vec Ideal S128x256 .bf16) y = (V c main_v12 : Vec Ideal S128x256 .bf16) y := by
  obtain ⟨-, -, ⟨e0, e1⟩, -⟩ := blockIndex t
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 256 + 1 * (y 1).val = (y 1).val; omega
  show V c main_v12 (((cfg0.win 2).blk t).view.emb y) = V c main_v12 y
  rw [h]

/-- So is the second weight matrix's. -/
theorem featureWeights_apply (c : Dev nD) (t : Fin cfg0.N) (y : S128x256.Idx) :
    (iblk0 V c 3 t : Vec Ideal S128x256 .bf16) y = (V c main_v13 : Vec Ideal S128x256 .bf16) y := by
  obtain ⟨-, -, -, ⟨e0, e1⟩, -⟩ := blockIndex t
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 256 + 1 * (y 1).val = (y 1).val; omega
  show V c main_v13 (((cfg0.win 3).blk t).view.emb y) = V c main_v13 y
  rw [h]

/-- And the bias row's block is the whole row. -/
theorem biasBlock_apply (c : Dev nD) (t : Fin cfg0.N) (y : S1x256.Idx) :
    (iblk0 V c 4 t : Vec Ideal S1x256 .f32) y = (V c main_v30 : Vec Ideal S1x256 .f32) y := by
  obtain ⟨-, -, -, -, ⟨e0, e1⟩, -⟩ := blockIndex t
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  show V c main_v30 (((cfg0.win 4).blk t).view.emb y) = V c main_v30 y
  rw [h]

/-! ## What a point writes back -/

/-- The clamped layer at an index whose row is P and whose column is r. -/
theorem layerRelu_at (mean x : Vec Ideal S50000x128 .f32) (wl wr : Vec Ideal S128x256 .bf16) (b : Vec Ideal S1x256 .f32)
    (i : S50000x256.Idx) (P : Fin 50000) (r : Fin 256) (hP : (i 0).val = P.val) (hr : (i 1).val = r.val) :
    Sage.layerRelu (n := 50000) (k := 128) (d := 256) mean x wl wr b i
      = max ((∑ q : Fin 128, mean (ix2 P q) * wl (ix2 q r) + ∑ q : Fin 128, x (ix2 P q) * wr (ix2 q r)) + b (ix2 0 r)) 0 := by
  have eP : Sage.row i = P := Fin.ext hP
  have er : Sage.col i = r := Fin.ext hr
  unfold Sage.layerRelu Sage.layer Sage.rowDot
  rw [eP, er]

/-- What point t writes back is block t of the clamped layer of the arrays the region was entered with: entry
    (p, r) of the block is row 2000 t + p of the layer, and the body's two block products read exactly that row of
    the neighbour means and of the node features. -/
theorem flushed_eq (c : Dev nD) (t : Fin cfg0.N) :
    (dat0 V c).flushed 5 t = ((cfg0.win 5).blk t).view.read (Elt Ideal)
      (Sage.layerRelu (n := 50000) (k := 128) (d := 256) (V c main_v29) (V c main_arg0) (V c main_v12) (V c main_v13) (V c main_v30)) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x256) zeroOffsets,
    View.ld_unit_zero (S := S1x256) zeroOffsets]
  obtain ⟨-, -, -, -, -, e0, e1⟩ := blockIndex t
  have ht : t.val < 25 := t.isLt
  funext j
  obtain ⟨p, r, rfl⟩ : ∃ (p : Fin 2000) (r : Fin 256), j = ix2 p r := ⟨j 0, j 1, eq_ix2 j⟩
  have hp : p.val < 2000 := p.isLt
  obtain ⟨P, hPv⟩ : ∃ P : Fin 50000, P.val = 2000 * t.val + p.val := ⟨⟨2000 * t.val + p.val, by omega⟩, rfl⟩
  have hI0 : ((((cfg0.win 5).blk t).view.emb (ix2 p r) : S50000x256.Idx) 0).val = P.val := by
    show win0_5.index t (0 : Fin 2) * 2000 + 1 * p.val = P.val; omega
  have hI1 : ((((cfg0.win 5).blk t).view.emb (ix2 p r) : S50000x256.Idx) 1).val = r.val := by
    show win0_5.index t (1 : Fin 2) * 256 + 1 * r.val = r.val; omega
  refine (payload_apply _ _ _ _ _ p r).trans ?_
  refine Eq.trans ?_ (layerRelu_at _ _ _ _ _ _ P r hI0 hI1).symm
  refine congrArg (max · 0) (congrArg₂ (· + ·) (congrArg₂ (· + ·) (Finset.sum_congr rfl fun q _ => ?_)
    (Finset.sum_congr rfl fun q _ => ?_)) ?_)
  · exact congrArg₂ (· * ·) (meanBlock_apply V c t (ix2 p q) (ix2 P q) hPv rfl) (meanWeights_apply V c t (ix2 q r))
  · exact congrArg₂ (· * ·) (featureBlock_apply V c t (ix2 p q) (ix2 P q) hPv rfl) (featureWeights_apply V c t (ix2 q r))
  · exact biasBlock_apply V c t (ix2 0 r)

/-! ## The blocks fill the output array -/

/-- An index of the output array is in point t's block iff each coordinate is in the block's range on its axis. -/
theorem mem_block (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v31).slice (win0_5.rect t)).set ↔ _
  rw [View.set_slice_whole, Rect.mem_set_unit]
  exact Iff.rfl

/-- Row i of the output lies in the block of point i / 2000, and every point writes its block back. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, htv⟩ : ∃ t : Fin cfg0.N, t.val = (i 0).val / 2000 :=
    ⟨⟨(i 0).val / 2000, by rw [show cfg0.N = 25 from N_0]; omega⟩, rfl⟩
  obtain ⟨-, -, -, -, -, e0, e1⟩ := blockIndex t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- After the first region its output array holds the clamped layer of the arrays the region was entered with. -/
theorem array_eq (c : Dev nD) :
    (dat0 V c).arrAt 5 cfg0.N
      = Sage.layerRelu (n := 50000) (k := 128) (d := 256) (V c main_v29) (V c main_arg0) (V c main_v12) (V c main_v13) (V c main_v30) := by
  exact (dat0 V c).arrAt_eq_of_cover 5 _ (fun t _ => flushed_eq V c t) covered

end Cert.KernelIdeal.FirstLayer

end
-- ==== Proof.SecondLayer.lean ====
/-
  The second layer's kernel region, read as a value over the extended reals. The region walks the 50000 rows in 25
  blocks of 2000; at block t it reads rows 2000 t … 2000 t + 1999 of the neighbour means and of the hidden features,
  both whole weight matrices and the bias row, and writes the same rows of the output. So the output array after
  the region is ONE function of the arrays as the region finds them: the (unclamped) layer of Spec.lean.
-/
import proofs.«124753_j85315230367791_1_alg».proof.Proof.Gen.KernelIdeal.Frame
import proofs.«124753_j85315230367791_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondLayer

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: every statement below holds for any such contents
variable (V : (c : Dev nD) → (b : Ref sig .tc) → Buf (Elt Ideal) ((c : Thread nD τ).loc b))

/-! ## One product read at an entry

The contraction of a 2000 × 256 block with a 256 × 64 matrix pairs the block's second axis with the matrix's first.
At output entry (p, r) and contraction coordinate q the left factor sits at (p, q) and the right factor at (q, r). -/

/-- The left factor keeps the output's row. -/
theorem lhs_row (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- The left factor's column is the contraction coordinate. -/
theorem lhs_contr (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right factor's row is the contraction coordinate. -/
theorem rhs_contr (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
/-- The right factor keeps the output's column. -/
theorem rhs_col (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- A product into the zero accumulator, at entry (p, r): Σ_q a[p,q] · w[q,r]. -/
theorem product_at (a : FVec Ideal S2000x256 .bf16) (w : FVec Ideal S256x64 .bf16) (p : Fin 2000) (r : Fin 64) :
    matmul dot_S2000x256_S256x64_S2000x64_1_0_0_1_n_n none a w (constant (F := Ideal) S2000x64 .f32 0x00000000#32) (ix2 p r)
      = ∑ q : Fin 256, a (ix2 p q) * w (ix2 q r) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p r) ((ValueIdx.contrEquiv1 dot_S2000x256_S256x64_S2000x64_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x64_S2000x64_1_0_0_1_n_n.rhsIdx (ix2 p r) ((ValueIdx.contrEquiv1 dot_S2000x256_S256x64_S2000x64_1_0_0_1_n_n 256 rfl rfl).symm k) = ix2 k r := funext fun a => Fin.ext (by
    match a with
    | ⟨0, _⟩ => exact (rhs_contr _ _).trans hk
    | ⟨1, _⟩ => exact rhs_col _ _)
  rw [el, er]

/-! ## The body's payload at an entry -/

/-- What the body stores at entry (p, r) of its block: both products, added, plus the bias row's entry r. The casts
    to an unchanged shape do nothing, and narrowing the first factors' format is the identity on extended reals. -/
theorem payload_at (x0 x1 : Vec Ideal S2000x256 .f32) (x2 x3 : Vec Ideal S256x64 .bf16) (x4 : Vec Ideal S1x64 .f32)
    (p : Fin 2000) (r : Fin 64) :
    k1_pay1 (F := Ideal) x0 x1 x2 x3 x4 (ix2 p r)
      = (∑ q : Fin 256, x0 (ix2 p q) * x2 (ix2 q r) + ∑ q : Fin 256, x1 (ix2 p q) * x3 (ix2 q r)) + x4 (ix2 0 r) := by
  unfold k1_pay1
  simp only [shapeCast_self]
  rw [addf_apply, addf_apply, product_at, product_at, broadcastTo_1b_ab_apply]
  rfl

/-! ## Where each window's block sits in its array -/

theorem zero_offsets : (![0, 0] : Fin 2 → Nat) = fun _ => 0 := funext fun a => by fin_cases a <;> rfl

/-- The windows' index maps, decided once over the 25 points: the two row-blocked inputs and the output sit at block
    (t, 0); both weight matrices and the bias row always sit at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the neighbour means' block at point t is entry (2000 t + p, q) of the array. -/
theorem mean_block (c : Dev nD) (t : Fin cfg1.N) (p : Fin 2000) (q : Fin 256) (P : Fin 50000)
    (hP : P.val = 2000 * t.val + p.val) :
    (iblk1 V c 0 t : Vec Ideal S2000x256 .f32) (ix2 p q) = (V c main_v44 : S50000x256.Idx → EReal) (ix2 P q) := by
  obtain ⟨e0, e1, -⟩ := block_indices t
  unfold iblk1
  rw [View.read_apply]
  show V c main_v44 _ = V c main_v44 _
  congr 1
  funext a
  apply Fin.ext
  match a with
  | ⟨0, _⟩ => show win1_0.index t (0 : Fin 2) * 2000 + 1 * p.val = P.val; rw [e0, hP]; omega
  | ⟨1, _⟩ => show win1_0.index t (1 : Fin 2) * 256 + 1 * q.val = q.val; rw [e1]; omega

/-- Entry (p, q) of the hidden features' block at point t is entry (2000 t + p, q) of the array. -/
theorem feat_block (c : Dev nD) (t : Fin cfg1.N) (p : Fin 2000) (q : Fin 256) (P : Fin 50000)
    (hP : P.val = 2000 * t.val + p.val) :
    (iblk1 V c 1 t : Vec Ideal S2000x256 .f32) (ix2 p q) = (V c main_v31 : S50000x256.Idx → EReal) (ix2 P q) := by
  obtain ⟨-, -, e0, e1, -⟩ := block_indices t
  unfold iblk1
  rw [View.read_apply]
  show V c main_v31 _ = V c main_v31 _
  congr 1
  funext a
  apply Fin.ext
  match a with
  | ⟨0, _⟩ => show win1_1.index t (0 : Fin 2) * 2000 + 1 * p.val = P.val; rw [e0, hP]; omega
  | ⟨1, _⟩ => show win1_1.index t (1 : Fin 2) * 256 + 1 * q.val = q.val; rw [e1]; omega

/-- The first weight matrix's block is the whole matrix, at every point. -/
theorem wl_block (c : Dev nD) (t : Fin cfg1.N) (q : Fin 256) (r : Fin 64) :
    (iblk1 V c 2 t : Vec Ideal S256x64 .bf16) (ix2 q r) = (V c main_v14 : S256x64.Idx → EReal) (ix2 q r) := by
  obtain ⟨-, -, -, -, e0, e1, -⟩ := block_indices t
  unfold iblk1
  rw [View.read_apply]
  show V c main_v14 _ = V c main_v14 _
  congr 1
  funext a
  apply Fin.ext
  match a with
  | ⟨0, _⟩ => show win1_2.index t (0 : Fin 2) * 256 + 1 * q.val = q.val; rw [e0]; omega
  | ⟨1, _⟩ => show win1_2.index t (1 : Fin 2) * 64 + 1 * r.val = r.val; rw [e1]; omega

/-- The second weight matrix's block is the whole matrix, at every point. -/
theorem wr_block (c : Dev nD) (t : Fin cfg1.N) (q : Fin 256) (r : Fin 64) :
    (iblk1 V c 3 t : Vec Ideal S256x64 .bf16) (ix2 q r) = (V c main_v15 : S256x64.Idx → EReal) (ix2 q r) := by
  obtain ⟨-, -, -, -, -, -, e0, e1, -⟩ := block_indices t
  unfold iblk1
  rw [View.read_apply]
  show V c main_v15 _ = V c main_v15 _
  congr 1
  funext a
  apply Fin.ext
  match a with
  | ⟨0, _⟩ => show win1_3.index t (0 : Fin 2) * 256 + 1 * q.val = q.val; rw [e0]; omega
  | ⟨1, _⟩ => show win1_3.index t (1 : Fin 2) * 64 + 1 * r.val = r.val; rw [e1]; omega

/-- The bias row's block is the whole row, at every point. -/
theorem bias_block (c : Dev nD) (t : Fin cfg1.N) (r : Fin 64) :
    (iblk1 V c 4 t : Vec Ideal S1x64 .f32) (ix2 (0 : Fin 1) r) = (V c main_v45 : S1x64.Idx → EReal) (ix2 (0 : Fin 1) r) := by
  obtain ⟨-, -, -, -, -, -, -, -, e0, e1, -⟩ := block_indices t
  unfold iblk1
  rw [View.read_apply]
  show V c main_v45 _ = V c main_v45 _
  congr 1
  funext a
  apply Fin.ext
  match a with
  | ⟨0, _⟩ => show win1_4.index t (0 : Fin 2) * 1 + 1 * (0 : Fin 1).val = (0 : Fin 1).val; rw [e0]; omega
  | ⟨1, _⟩ => show win1_4.index t (1 : Fin 2) * 64 + 1 * r.val = r.val; rw [e1]; omega

/-! ## The layer at an entry -/

/-- The layer of Spec.lean at an index whose row is P and whose column is r. -/
theorem layer_at (mean x : S50000x256.Idx → EReal) (wl wr : S256x64.Idx → EReal) (b : S1x64.Idx → EReal)
    (i : S50000x64.Idx) (P : Fin 50000) (r : Fin 64) (hP : (i 0).val = P.val) (hr : (i 1).val = r.val) :
    Sage.layer (n := 50000) (k := 256) (d := 64) mean x wl wr b i
      = (∑ q : Fin 256, mean (ix2 P q) * wl (ix2 q r) + ∑ q : Fin 256, x (ix2 P q) * wr (ix2 q r)) + b (ix2 0 r) := by
  have h1 : Sage.row i = P := Fin.ext hP
  have h2 : Sage.col i = r := Fin.ext hr
  unfold Sage.layer Sage.rowDot
  rw [h1, h2]

/-! ## What a point writes back, and the whole array -/

/-- WHAT POINT t WRITES BACK is block t of the layer of the arrays the region was entered with: at entry (p, r) of
    the block the body's payload reads rows 2000 t + p of the two row-blocked inputs, the whole weight matrices and
    the bias row, and the block's entry (p, r) is the array's entry (2000 t + p, r). -/
theorem flushed_eq (c : Dev nD) (t : Fin cfg1.N) :
    (dat1 V c).flushed 5 t = ((cfg1.win 5).blk t).view.read (Elt Ideal)
      (Sage.layer (n := 50000) (k := 256) (d := 64) (V c main_v44) (V c main_v31) (V c main_v14) (V c main_v15) (V c main_v45)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x64) zero_offsets, View.ld_unit_zero (S := S1x64) zero_offsets]
  obtain ⟨-, -, -, -, -, -, -, -, -, -, e0, e1⟩ := block_indices t
  funext j
  obtain ⟨p, r, rfl⟩ : ∃ (p : Fin 2000) (r : Fin 64), j = ix2 p r := ⟨j 0, j 1, eq_ix2 j⟩
  show k1_pay1 (F := Ideal) (iblk1 V c 0 t) (iblk1 V c 1 t) (iblk1 V c 2 t) (iblk1 V c 3 t) (iblk1 V c 4 t) (ix2 p r)
      = (Sage.layer (n := 50000) (k := 256) (d := 64) (V c main_v44) (V c main_v31) (V c main_v14) (V c main_v15) (V c main_v45)) (((cfg1.win 5).blk t).view.emb (ix2 p r))
  have hi0 : ((((cfg1.win 5).blk t).view.emb (ix2 p r)) 0).val = 2000 * t.val + p.val := by
    show win1_5.index t (0 : Fin 2) * 2000 + 1 * p.val = _
    rw [e0]; omega
  have hi1 : ((((cfg1.win 5).blk t).view.emb (ix2 p r)) 1).val = r.val := by
    show win1_5.index t (1 : Fin 2) * 64 + 1 * r.val = _
    rw [e1]; omega
  -- the array's row under entry (p, r) of the block, named once
  obtain ⟨P, hP⟩ : ∃ P : Fin 50000, ((((cfg1.win 5).blk t).view.emb (ix2 p r)) 0).val = P.val :=
    ⟨⟨_, ((((cfg1.win 5).blk t).view.emb (ix2 p r)) 0).isLt⟩, rfl⟩
  have hP' : P.val = 2000 * t.val + p.val := hP.symm.trans hi0
  refine (payload_at _ _ _ _ _ p r).trans ?_
  refine Eq.trans ?_ (layer_at _ _ _ _ _ (((cfg1.win 5).blk t).view.emb (ix2 p r)) P r hP hi1).symm
  refine congrArg₂ (· + ·) (congrArg₂ (· + ·) (Finset.sum_congr rfl fun q _ => ?_) (Finset.sum_congr rfl fun q _ => ?_))
    (bias_block V c t r)
  · rw [mean_block V c t p q P hP', wl_block V c t q r]
  · rw [feat_block V c t p q P hP', wr_block V c t q r]

/-- An index of the output array is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v46).slice (win1_5.rect t)).set ↔ _
  rw [View.set_slice_whole, Rect.mem_set_unit]
  exact Iff.rfl

/-- The 25 blocks of 2000 rows cover the 50000 rows: row i lies in block i / 2000, and every point writes back. -/
theorem cover (i : S50000x64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1⟩ := block_indices t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 64 ≤ (i 1).val ∧ (i 1).val < win1_5.index t (1 : Fin 2) * 64 + 64
    rw [e1]; omega

/-- After the second region its output array holds the layer of the arrays the region was entered with. -/
theorem array_eq (c : Dev nD) :
    (dat1 V c).arrAt 5 cfg1.N
      = Sage.layer (n := 50000) (k := 256) (d := 64) (V c main_v44) (V c main_v31) (V c main_v14) (V c main_v15) (V c main_v45) :=
  (dat1 V c).arrAt_eq_of_cover 5 _ (fun t _ => flushed_eq V c t) cover

end Cert.KernelIdeal.SecondLayer

end
-- ==== Proof.Decoder.lean ====
/-
  The decoder's kernel region, read as a value over the extended reals. The region walks the 50000 rows in 25 blocks
  of 2000; at block t it reads rows 2000 t … 2000 t + 1999 of the latent features, the whole weight matrix and the
  bias row, and writes the same rows of the output. So the output array after the region is ONE function of the
  arrays as the region finds them: the decoder of Spec.lean.
-/
import proofs.«124753_j85315230367791_1_alg».proof.Proof.Gen.KernelIdeal.Frame
import proofs.«124753_j85315230367791_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Decoder

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product, read at an entry -/

/-- The left operand's index on the row axis is the output's row. -/
theorem lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left operand's index on the contracted axis is the summation index. -/
theorem lhs_contr (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right operand's index on the contracted axis is the summation index. -/
theorem rhs_contr (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- The right operand's index on the column axis is the output's column. -/
theorem rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A 2000 × 64 block times the 64 × 128 weights, accumulated into zero: entry (p, r) is the sum over q of the
    block's (p, q) times the weights' (q, r). -/
theorem product_apply (a : FVec Ideal S2000x64 .bf16) (w : FVec Ideal S64x128 .bf16) (p : Fin 2000) (r : Fin 128) :
    matmul (F := Ideal) dot_S2000x64_S64x128_S2000x128_1_0_0_1_n_n none a w (constant (F := Ideal) S2000x128 .f32 0x00000000#32) (ix2 p r)
      = ∑ q : Fin 64, a (ix2 p q) * w (ix2 q r) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p r) ((ValueIdx.contrEquiv1 dot_S2000x64_S64x128_S2000x128_1_0_0_1_n_n 64 rfl rfl).symm k) = ix2 p k := funext fun ax => Fin.ext (by
    match ax with
    | ⟨0, _⟩ => exact lhs_row _ _
    | ⟨1, _⟩ => exact (lhs_contr _ _).trans hk)
  have er : dot_S2000x64_S64x128_S2000x128_1_0_0_1_n_n.rhsIdx (ix2 p r) ((ValueIdx.contrEquiv1 dot_S2000x64_S64x128_S2000x128_1_0_0_1_n_n 64 rfl rfl).symm k) = ix2 k r := funext fun ax => Fin.ext (by
    match ax with
    | ⟨0, _⟩ => exact (rhs_contr _ _).trans hk
    | ⟨1, _⟩ => exact rhs_col _ _)
  rw [el, er]

/-- What the body stores, at entry (p, r): the product's entry plus the bias row's entry r. The cast to the same
    shape is the identity, and so is the narrowing of the block's format on the extended reals. -/
theorem payload_apply (x0 : Vec Ideal S2000x64 .f32) (x1 : Vec Ideal S64x128 .bf16) (x2 : Vec Ideal S1x128 .f32)
    (p : Fin 2000) (r : Fin 128) :
    k2_pay1 (F := Ideal) x0 x1 x2 (ix2 p r) = (∑ q : Fin 64, x0 (ix2 p q) * x1 (ix2 q r)) + x2 (ix2 (0 : Fin 1) r) := by
  unfold k2_pay1
  simp only [shapeCast_self]
  rw [addf_apply, product_apply, broadcastTo_1b_ab_apply]
  rfl

-- the TensorCore's buffer contents when the region is entered: every statement below holds for any such contents
variable (V : (c : Dev nD) → (b : Ref sig .tc) → Buf (Elt Ideal) ((c : Thread nD τ).loc b))

/-! ## The arrays and their blocks -/

/-- The latent features, 50000 rows of 64, as the region finds them. -/
abbrev latent (c : Dev nD) : Vec Ideal S50000x64 .f32 := V c main_v46
/-- The decoder's weights, 64 × 128. -/
abbrev weights (c : Dev nD) : Vec Ideal S64x128 .bf16 := V c main_v16
/-- The decoder's bias row. -/
abbrev bias (c : Dev nD) : Vec Ideal S1x128 .f32 := V c main_v47
/-- The block of latent rows the body reads at point t. -/
abbrev latentBlock (c : Dev nD) (t : Fin cfg2.N) : Vec Ideal S2000x64 .f32 := iblk2 V c 0 t
/-- The block of the weights the body reads at point t. -/
abbrev weightsBlock (c : Dev nD) (t : Fin cfg2.N) : Vec Ideal S64x128 .bf16 := iblk2 V c 1 t
/-- The block of the bias row the body reads at point t. -/
abbrev biasBlock (c : Dev nD) (t : Fin cfg2.N) : Vec Ideal S1x128 .f32 := iblk2 V c 2 t

/-- A whole-buffer access starts at offset zero on both axes. -/
theorem zero_offsets : (![0, 0] : Fin 2 → Nat) = fun _ => 0 := funext fun a => by fin_cases a <;> rfl

/-- The grid has 25 points. -/
theorem point_lt (t : Fin cfg2.N) : t.val < 25 := lt_of_lt_of_eq t.isLt N_2

/-- The index maps over the grid: at point t the latent rows' and the output's blocks are block t of their row axis and
    block 0 of their column axis; the weights' and the bias row's are block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the latent block at point t is row 2000 t + p of the latent features. -/
theorem latentBlock_apply (c : Dev nD) (t : Fin cfg2.N) (p : Fin 2000) (q : Fin 64) (P : Fin 50000)
    (hP : P.val = 2000 * t.val + p.val) : latentBlock V c t (ix2 p q) = latent V c (ix2 P q) := by
  obtain ⟨e0, e1, -⟩ := index_facts t
  show latent V c (((cfg2.win 0).blk t).view.emb (ix2 p q)) = latent V c (ix2 P q)
  refine congrArg (latent V c) (funext fun a => Fin.ext ?_)
  match a with
  | ⟨0, _⟩ => show win2_0.index t (0 : Fin 2) * 2000 + 1 * p.val = P.val; omega
  | ⟨1, _⟩ => show win2_0.index t (1 : Fin 2) * 64 + 1 * q.val = q.val; omega

/-- The weights' block is the weights, at every point. -/
theorem weightsBlock_apply (c : Dev nD) (t : Fin cfg2.N) (q : Fin 64) (r : Fin 128) :
    weightsBlock V c t (ix2 q r) = weights V c (ix2 q r) := by
  obtain ⟨-, -, e0, e1, -⟩ := index_facts t
  show weights V c (((cfg2.win 1).blk t).view.emb (ix2 q r)) = weights V c (ix2 q r)
  refine congrArg (weights V c) (funext fun a => Fin.ext ?_)
  match a with
  | ⟨0, _⟩ => show win2_1.index t (0 : Fin 2) * 64 + 1 * q.val = q.val; omega
  | ⟨1, _⟩ => show win2_1.index t (1 : Fin 2) * 128 + 1 * r.val = r.val; omega

/-- The bias row's block is the bias row, at every point. -/
theorem biasBlock_apply (c : Dev nD) (t : Fin cfg2.N) (r : Fin 128) :
    biasBlock V c t (ix2 (0 : Fin 1) r) = bias V c (ix2 (0 : Fin 1) r) := by
  obtain ⟨-, -, -, -, e0, e1, -⟩ := index_facts t
  show bias V c (((cfg2.win 2).blk t).view.emb (ix2 (0 : Fin 1) r)) = bias V c (ix2 (0 : Fin 1) r)
  refine congrArg (bias V c) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 128 + 1 * r.val = r.val; omega

/-- Entry (p, r) of the output's block at point t sits at row 2000 t + p, column r of the output array. -/
theorem outBlock_emb (t : Fin cfg2.N) (p : Fin 2000) (r : Fin 128) (P : Fin 50000) (hP : P.val = 2000 * t.val + p.val) :
    ((cfg2.win 3).blk t).view.emb (ix2 p r) = (ix2 P r : S50000x128.Idx) := by
  obtain ⟨-, -, -, -, -, -, e0, e1⟩ := index_facts t
  funext a; apply Fin.ext
  match a with
  | ⟨0, _⟩ => show win2_3.index t (0 : Fin 2) * 2000 + 1 * p.val = P.val; omega
  | ⟨1, _⟩ => show win2_3.index t (1 : Fin 2) * 128 + 1 * r.val = r.val; omega

/-! ## What a point writes back -/

/-- The decoder at row P, column r: the row's product with the weights' column plus the bias row's entry. -/
theorem decode_apply (z : Vec Ideal S50000x64 .f32) (w : Vec Ideal S64x128 .bf16) (b : Vec Ideal S1x128 .f32)
    (P : Fin 50000) (r : Fin 128) :
    Sage.decode (n := 50000) (k := 64) (d := 128) z w b (ix2 P r)
      = (∑ q : Fin 64, z (ix2 P q) * w (ix2 q r)) + b (ix2 (0 : Fin 1) r) := rfl

/-- What point t writes back is block t of the decoder of the arrays the region was entered with: the body's one
    store holds, at (p, r), the product of row p of the latent block with column r of the weights plus the bias
    row's entry r, and row p of that block is row 2000 t + p of the latent features. -/
theorem flushed_eq (c : Dev nD) (t : Fin cfg2.N) :
    (dat2 V c).flushed 3 t = ((cfg2.win 3).blk t).view.read (Elt Ideal)
      (Sage.decode (n := 50000) (k := 64) (d := 128) (V c main_v46) (V c main_v16) (V c main_v47)) := by
  show (cfg2.win 3).cut (grid2.coords t) ((dat2 V c).after 3 t) = _
  rw [Gen.after2_3]
  unfold Gen.out2_3
  rw [View.canon_unit_zero zero_offsets]
  simp only [View.ld_unit_zero (S := S2000x64) zero_offsets, View.ld_unit_zero (S := S64x128) zero_offsets,
    View.ld_unit_zero (S := S1x128) zero_offsets]
  funext j
  obtain ⟨p, r, rfl⟩ : ∃ (p : Fin 2000) (r : Fin 128), j = ix2 p r := ⟨j 0, j 1, eq_ix2 j⟩
  have ht := point_lt t
  obtain ⟨P, hP⟩ : ∃ P : Fin 50000, P.val = 2000 * t.val + p.val := ⟨⟨2000 * t.val + p.val, by omega⟩, rfl⟩
  show k2_pay1 (F := Ideal) (latentBlock V c t) (weightsBlock V c t) (biasBlock V c t) (ix2 p r)
    = Sage.decode (n := 50000) (k := 64) (d := 128) (latent V c) (weights V c) (bias V c) (((cfg2.win 3).blk t).view.emb (ix2 p r))
  rw [outBlock_emb t p r P hP, decode_apply (latent V c) (weights V c) (bias V c) P r]
  refine (payload_apply (latentBlock V c t) (weightsBlock V c t) (biasBlock V c t) p r).trans ?_
  rw [biasBlock_apply V c t r]
  refine congrArg (· + bias V c (ix2 (0 : Fin 1) r)) (Finset.sum_congr rfl fun q _ => ?_)
  rw [latentBlock_apply V c t p q P hP, weightsBlock_apply V c t q r]

/-! ## The blocks cover the array -/

/-- An index of the output array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v48).slice (win2_3.rect t)).set ↔ _
  rw [View.set_slice_whole, Rect.mem_set_unit]
  exact Iff.rfl

/-- Row i of the output lies in block i / 2000, and every point writes its block back. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 2000 < cfg2.N := by rw [show cfg2.N = 25 from N_2]; omega
  obtain ⟨-, -, -, -, -, -, e0, e1⟩ := index_facts ⟨(i 0).val / 2000, ht⟩
  have e0' : win2_3.index ⟨(i 0).val / 2000, ht⟩ (0 : Fin 2) = (i 0).val / 2000 := e0
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 128 ≤ (i 1).val
      ∧ (i 1).val < win2_3.index ⟨(i 0).val / 2000, ht⟩ (1 : Fin 2) * 128 + 128
    omega

/-! ## The array after the region -/

/-- After the decoder's region its output array holds the decoder of the arrays the region was entered with. -/
theorem array_eq (c : Dev nD) :
    (dat2 V c).arrAt 3 cfg2.N
      = Sage.decode (n := 50000) (k := 64) (d := 128) (V c main_v46) (V c main_v16) (V c main_v47) := by
  exact (dat2 V c).arrAt_eq_of_cover 3 _ (fun t _ => flushed_eq V c t) cover

end Cert.KernelIdeal.Decoder

end
-- ==== Proof.Stages.lean ====
/-
  The kernel program's two results are the reference program's, as whole arrays over the extended reals.

  Three steps, one per kernel region, each feeding the next. After the first region the hidden array is the
  reference's hidden stage: the region leaves the clamped layer of the arrays it was entered with, those arrays are
  the neighbour means (summed rows times reciprocal counts), the node features, the two narrowed weight matrices and
  the bias row, and entry by entry that layer is the reference's. The array operations before the second region then
  gather and sum the SAME hidden array with the same edge list as the reference does, so the second region's output
  is the reference's latent stage by the same argument; and the decoder's region, entered with that latent array,
  leaves the reference's reconstruction. The latent array itself is an input of the last region and is still there
  when the program ends.
-/
import proofs.«124753_j85315230367791_1_alg».proof.Proof.HostReads
import proofs.«124753_j85315230367791_1_alg».proof.Proof.Entries
import proofs.«124753_j85315230367791_1_alg».proof.Proof.FirstLayer
import proofs.«124753_j85315230367791_1_alg».proof.Proof.SecondLayer
import proofs.«124753_j85315230367791_1_alg».proof.Proof.Decoder

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- After the first region the hidden array is the reference's hidden stage of the arguments. -/
theorem hidden_eq (c : Dev nD) :
    (W2 m ρ c (Proc.devRef .tc main_v31) : S50000x256.Idx → EReal) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [FirstLayer.array_eq (V1 m ρ) c]
  show Sage.layerRelu (n := 50000) (k := 128) (d := 256) (W1 m ρ c (Proc.devRef .tc main_v29)) (W1 m ρ c (Proc.devRef .tc main_arg0))
    (W1 m ρ c (Proc.devRef .tc main_v12)) (W1 m ρ c (Proc.devRef .tc main_v13)) (W1 m ρ c (Proc.devRef .tc main_v30)) = _
  rw [mean1_eq, W1_arg0, W1_wl1, W1_wr1, W1_b1]
  exact funext fun i => first_layer_entry _ _ _ _ _ i

/-- After the second region the latent array is the reference's latent stage of the arguments. -/
theorem latent_eq (c : Dev nD) :
    (W4 m ρ c (Proc.devRef .tc main_v46) : S50000x64.Idx → EReal) = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [SecondLayer.array_eq (V3 m ρ) c]
  show Sage.layer (n := 50000) (k := 256) (d := 64) (W3 m ρ c (Proc.devRef .tc main_v44)) (W3 m ρ c (Proc.devRef .tc main_v31))
    (W3 m ρ c (Proc.devRef .tc main_v14)) (W3 m ρ c (Proc.devRef .tc main_v15)) (W3 m ρ c (Proc.devRef .tc main_v45)) = _
  rw [mean2_eq m ρ c (hidden_eq m ρ c), W3_hidden, hidden_eq, W3_wl2, W3_wr2, W3_b2]
  exact funext fun i => second_layer_entry _ _ _ _ _ _ _ _ i

/-- After the decoder's region its output array is the reference's reconstruction of the arguments. -/
theorem output_eq (c : Dev nD) :
    (W6 m ρ c (Proc.devRef .tc main_v48) : S50000x128.Idx → EReal) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 3).trans ?_
  rw [Decoder.array_eq (V5 m ρ) c]
  show Sage.decode (n := 50000) (k := 64) (d := 128) (W5 m ρ c (Proc.devRef .tc main_v46)) (W5 m ρ c (Proc.devRef .tc main_v16)) (W5 m ρ c (Proc.devRef .tc main_v47)) = _
  rw [W5_latent, latent_eq, W5_wd, W5_bd]
  exact funext fun i => decode_entry _ _ _ _ _ _ _ _ _ _ i

/-- The latent array, an input of the last region, ends as that region found it. -/
theorem latent_kept (c : Dev nD) :
    (W6 m ρ c (Proc.devRef .tc main_v46) : S50000x64.Idx → EReal) = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  ((W6_arr m ρ c 0).trans (((dat2 (V5 m ρ) c).arrAt_in 0 rfl _).trans (A_eq2 (V5 m ρ) c 0))).trans
    ((W5_latent m ρ c).trans (latent_eq m ρ c))

end Cert.KernelIdeal.Chain

end
-- ==== Proof.lean ====
/-
  A two-layer mean-aggregating graph network with a linear decoder, as three tiled kernels among plain array
  operations, against the same network written with whole-array operations; both read at exact extended-real
  arithmetic. They return the same latent array and the same reconstruction.

  The two programs differ in three ways, none of which changes a value over the extended reals. The kernels run the
  dense products block by block over 2000 rows at a time with weight matrices narrowed to a shorter float format
  (the identity here), where the reference takes whole matrix products. The kernel program forms a neighbour mean as
  the summed rows TIMES the reciprocal of the clamped neighbour count, the reference as the summed rows DIVIDED BY
  that count; the count is a maximum with one, so it is not zero, and then the quotient is the product with the
  inverse whatever the numerator. And the bias is added after both products in one program and between them in the
  other. The gathers and scatter-adds are the same operations on the same arrays in both programs and are never
  opened. No step uses that the inputs are finite.

  The frames of the two kernel programs are the generated ones; the reference's is its generated run with the
  results dropped. The kernel program's run with its two result buffers named is `Run.run_values`, and
  `Chain.latent_kept`, `Chain.output_eq` say those buffers hold the reference's stages of the arguments.
-/
import proofs.«124753_j85315230367791_1_alg».proof.Defs
import proofs.«124753_j85315230367791_1_alg».proof.Proof.Gen.Kernel
import proofs.«124753_j85315230367791_1_alg».proof.Proof.Gen.Kernel.Skeleton
import proofs.«124753_j85315230367791_1_alg».proof.Proof.Gen.Kernel.Launch
import proofs.«124753_j85315230367791_1_alg».proof.Proof.Gen.Kernel.Points
import proofs.«124753_j85315230367791_1_alg».proof.Proof.Gen.Kernel.Frame
import proofs.«124753_j85315230367791_1_alg».proof.Proof.Gen.KernelIdeal
import proofs.«124753_j85315230367791_1_alg».proof.Proof.Gen.KernelIdeal.Skeleton
import proofs.«124753_j85315230367791_1_alg».proof.Proof.Gen.KernelIdeal.Launch
import proofs.«124753_j85315230367791_1_alg».proof.Proof.Gen.KernelIdeal.Points
import proofs.«124753_j85315230367791_1_alg».proof.Proof.Gen.KernelIdeal.Frame
import proofs.«124753_j85315230367791_1_alg».proof.Proof.Gen.ReferenceIdeal
import proofs.«124753_j85315230367791_1_alg».proof.Proof.Gen.Pre_finite_inputs
import proofs.«124753_j85315230367791_1_alg».proof.Proof.Gen.ReferenceIdeal.Run
import proofs.«124753_j85315230367791_1_alg».proof.Proof.Gen.ReferenceIdeal.Read
import proofs.«124753_j85315230367791_1_alg».proof.Proof.KernelRun
import proofs.«124753_j85315230367791_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs, and keeps its arguments: its generated run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reference's latent stage and reconstruction
    of those arguments in their result buffers. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Run.run_values (F := Ideal) m ρ)
    obtain ⟨h46, h48, hargs⟩ := h c
    exact ⟨h46.trans (Cert.KernelIdeal.Chain.latent_kept m ρ c), h48.trans (Cert.KernelIdeal.Chain.output_eq m ρ c), hargs⟩
  · refine (θ_run Cert.ReferenceIdeal.defs _ _).mono (fun r h c => ?_) (Cert.ReferenceIdeal.Value.run (F := Ideal) m' ρ')
    obtain ⟨h54, h58, hargs⟩ := h c
    obtain ⟨e0, e1, e2, e3, e4, e5, e6, e7, e8, e9⟩ := hagree c
    refine ⟨?_, ?_, hargs⟩
    · rw [h54, Cert.ReferenceIdeal.Read.val_main_v54_eq, e0, e1, e2, e3, e4, e5, e6, e7]
    · rw [h58, Cert.ReferenceIdeal.Read.val_main_v58_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
